-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S262144 : Shape := ⟨1, ![262144]⟩
abbrev S512x16 : Shape := ⟨2, ![512, 16]⟩
abbrev S16x16 : Shape := ⟨2, ![16, 16]⟩
abbrev S16x512 : Shape := ⟨2, ![16, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S512x16 : S_.BroadcastsInDim S512x16 (![] : Fin 0 → Fin S512x16.rank)
  reducesTo_S512x16_S_d0_1 : S512x16.ReducesTo [0, 1] S_
  bcast_S_S16x16 : S_.BroadcastsInDim S16x16 (![] : Fin 0 → Fin S16x16.rank)
  reducesTo_S16x16_S_d0_1 : S16x16.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg4 : FVec F S16x512 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16x512 .f32 := Host.absf main_arg4
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  main_v23

def fn {F : FTy → Type} [FloatOps F] (main_arg0 : FVec F S8x8192x512 .f32) (main_arg1 : FVec F S262144 .f32) (main_arg2 : FVec F S512x16 .f32) (main_arg3 : FVec F S16x16 .f32) (main_arg4 : FVec F S16x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S8x8192x512 : Shape := ⟨3, ![8, 8192, 512]⟩
abbrev S262144 : Shape := ⟨1, ![262144]⟩
abbrev S512x16 : Shape := ⟨2, ![512, 16]⟩
abbrev S16x16 : Shape := ⟨2, ![16, 16]⟩
abbrev S16x512 : Shape := ⟨2, ![16, 512]⟩
abbrev S512x512 : Shape := ⟨2, ![512, 512]⟩
abbrev S65536x512 : Shape := ⟨2, ![65536, 512]⟩
abbrev S2048x512 : Shape := ⟨2, ![2048, 512]⟩

abbrev nBuf : Space → Nat
  | .hbm => 9
  | .vmem => 5
  | .smem => 0
  | _ => 0

abbrev bufTy : (tb : Table) → Fin (tcTables nBuf tb) → BufTy
  | .hbm, ⟨0, _⟩ => ⟨S8x8192x512, .f32⟩
  | .hbm, ⟨1, _⟩ => ⟨S262144, .f32⟩
  | .hbm, ⟨2, _⟩ => ⟨S512x16, .f32⟩
  | .hbm, ⟨3, _⟩ => ⟨S16x16, .f32⟩
  | .hbm, ⟨4, _⟩ => ⟨S16x512, .f32⟩
  | .hbm, ⟨5, _⟩ => ⟨S512x512, .f32⟩
  | .hbm, ⟨6, _⟩ => ⟨S65536x512, .f32⟩
  | .hbm, ⟨7, _⟩ => ⟨S65536x512, .f32⟩
  | .hbm, ⟨8, _⟩ => ⟨S8x8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S262144_S512x512 : S262144.ShapeCasts S512x512
  shapeCasts_S8x8192x512_S65536x512 : S8x8192x512.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S65536x512_S8x8192x512 : S65536x512.ShapeCasts S8x8192x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S262144 : Shape := ⟨1, ![262144]⟩
abbrev S512x16 : Shape := ⟨2, ![512, 16]⟩
abbrev S16x16 : Shape := ⟨2, ![16, 16]⟩
abbrev S16x512 : Shape := ⟨2, ![16, 512]⟩
abbrev S512x512 : Shape := ⟨2, ![512, 512]⟩
abbrev S65536x512 : Shape := ⟨2, ![65536, 512]⟩

abbrev nBuf : Space → Nat
  | .hbm => 10
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S262144, .f32⟩
  | .hbm, ⟨2, _⟩ => ⟨S512x16, .f32⟩
  | .hbm, ⟨3, _⟩ => ⟨S16x16, .f32⟩
  | .hbm, ⟨4, _⟩ => ⟨S16x512, .f32⟩
  | .hbm, ⟨5, _⟩ => ⟨S512x512, .f32⟩
  | .hbm, ⟨6, _⟩ => ⟨S65536x512, .f32⟩
  | .hbm, ⟨7, _⟩ => ⟨S512x512, .f32⟩
  | .hbm, ⟨8, _⟩ => ⟨S65536x512, .f32⟩
  | .hbm, ⟨9, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S262144_S512x512 : S262144.ShapeCasts S512x512
  shapeCasts_S8x8192x512_S65536x512 : S8x8192x512.ShapeCasts S65536x512
  transposes_S512x512_S512x512_1_0 : S512x512.Transposes [1, 0] S512x512
  shapeCasts_S65536x512_S8x8192x512 : S65536x512.ShapeCasts S8x8192x512
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.KernelProduct.lean ====
/-
  The kernel body's stored value, read at one entry. The body loads a [2048, 512] block of rows `x` and the whole
  [512, 512] map `a`, narrows both to a shorter float format (which at the extended reals changes nothing), and
  multiplies them contracting the SECOND axis of both, into an accumulator of zeros. So entry `(p, q)` of what it
  stores is 0 + Σ_k x[p, k] · a[q, k] = Σ_k x[p, k] · a[q, k]: the row `p` of the block against the row `q` of the map.
-/
import proofs.«420385_j60748017435285_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## Which entry of each operand the product reads

The product's dimension numbers: on both operands axis 0 is kept and axis 1 is contracted. The result's axis 0 is the
left operand's kept axis and its axis 1 the right operand's kept axis. -/

/-- The left operand's row is the result's row. -/
theorem lhs_row (j : S2048x512.Idx) (q : dot_S2048x512_S512x512_S2048x512_1_1_0_0_n_n.contr.Idx) :
    (dot_S2048x512_S512x512_S2048x512_1_1_0_0_n_n.lhsIdx j q 0).val = (j 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- The left operand's column is the contraction position. -/
theorem lhs_col (j : S2048x512.Idx) (q : dot_S2048x512_S512x512_S2048x512_1_1_0_0_n_n.contr.Idx) :
    (dot_S2048x512_S512x512_S2048x512_1_1_0_0_n_n.lhsIdx j q 1).val = (q ⟨0, by decide⟩).val :=
  dot_S2048x512_S512x512_S2048x512_1_1_0_0_n_n.lhsIdx_val_of_single rfl j q
/-- The right operand's row is the result's column. -/
theorem rhs_row (j : S2048x512.Idx) (q : dot_S2048x512_S512x512_S2048x512_1_1_0_0_n_n.contr.Idx) :
    (dot_S2048x512_S512x512_S2048x512_1_1_0_0_n_n.rhsIdx j q 0).val = (j 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- The right operand's column is the contraction position. -/
theorem rhs_col (j : S2048x512.Idx) (q : dot_S2048x512_S512x512_S2048x512_1_1_0_0_n_n.contr.Idx) :
    (dot_S2048x512_S512x512_S2048x512_1_1_0_0_n_n.rhsIdx j q 1).val = (q ⟨0, by decide⟩).val :=
  dot_S2048x512_S512x512_S2048x512_1_1_0_0_n_n.rhsIdx_val_of_single rfl j q

/-! ## The stored value at an entry -/

/-- Entry `j` of what the body stores is the sum over the column `k` of the block's entry `(row of j, k)` times the
    map's entry `(column of j, k)`. The narrowing of the operands is the identity at the extended reals, the two
    reshapes are of a shape to itself, and the accumulator of zeros adds nothing. -/
theorem stored_apply (x : FVec Ideal S2048x512 .f32) (a : FVec Ideal S512x512 .f32) (j : S2048x512.Idx) :
    k0_pay1 (F := Ideal) x a j
      = ∑ k : Fin 512, x (ix2 (⟨(j 0).val, (j 0).isLt⟩ : Fin 2048) k) * a (ix2 (⟨(j 1).val, (j 1).isLt⟩ : Fin 512) k) := by
  unfold k0_pay1
  refine (Ideal.matmul_constant_zero_apply dot_S2048x512_S512x512_S2048x512_1_1_0_0_n_n none _ _ j).trans ?_
  rw [← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx j ((contrEquiv1 dot_S2048x512_S512x512_S2048x512_1_1_0_0_n_n 512 rfl rfl).symm k)
      = ix2 (⟨(j 0).val, (j 0).isLt⟩ : Fin 2048) k := funext fun b => Fin.ext (by
    match b with
    | ⟨0, _⟩ => exact lhs_row _ _
    | ⟨1, _⟩ => exact (lhs_col _ _).trans hk)
  have er : dot_S2048x512_S512x512_S2048x512_1_1_0_0_n_n.rhsIdx j ((contrEquiv1 dot_S2048x512_S512x512_S2048x512_1_1_0_0_n_n 512 rfl rfl).symm k)
      = ix2 (⟨(j 1).val, (j 1).isLt⟩ : Fin 512) k := funext fun b => Fin.ext (by
    match b with
    | ⟨0, _⟩ => exact rhs_row _ _
    | ⟨1, _⟩ => exact (rhs_col _ _).trans hk)
  rw [el, er, shapeCast_self, shapeCast_self]
  rfl

end Cert.KernelIdeal.Body

end
-- ==== Proof.RowProduct.lean ====
/-
  The function both programs compute between their reshapes: every row of a [65536, 512] matrix `X` against every
  row of a [512, 512] matrix `A`,
      (X · Aᵀ)[n, o] = Σ_k X[n, k] · A[o, k]        (k over the 512 columns),
  a finite sum of products of extended reals. No program is mentioned here: this is only the formula, stated once
  so that the kernel's array and the reference's term can both be shown equal to it.
-/
import Idealize.ShloMosaic.PureOps.Ideal
import Idealize.ShloMosaic.Lib.ValueIdx

noncomputable section

open scoped BigOperators

namespace Cert.RowProduct

open Idealize.ShloMosaic Idealize.ShloMosaic.ValueIdx

/-- The shape of the matrix of rows (and of the result), and of the square map. -/
abbrev Rows : Shape := ⟨2, ![65536, 512]⟩
abbrev Sq : Shape := ⟨2, ![512, 512]⟩

/-- `X · Aᵀ`: entry `(n, o)` is the sum over the column `k` of `X[n, k] · A[o, k]`. The two coordinates of the
    index are written out with their literal bounds, so that each has the plain type `Fin 65536` / `Fin 512`. -/
def timesTranspose (X : FVec Ideal Rows .f32) (A : FVec Ideal Sq .f32) : FVec Ideal Rows .f32 := fun i =>
  ∑ k : Fin 512, X (ix2 (⟨(i 0).val, (i 0).isLt⟩ : Fin 65536) k) * A (ix2 (⟨(i 1).val, (i 1).isLt⟩ : Fin 512) k)

/-- The same at an index given by its two coordinates. -/
theorem timesTranspose_ix2 (X : FVec Ideal Rows .f32) (A : FVec Ideal Sq .f32) (n : Fin 65536) (o : Fin 512) :
    timesTranspose X A (ix2 n o) = ∑ k : Fin 512, X (ix2 n k) * A (ix2 o k) := rfl

/-! ## The whole computation

Around the product both programs only change layout: the batch of 8 × 8192 rows of 512 is read as one matrix of
65536 rows, the flat parameter of 262144 numbers as the square map (row-major in both cases), and the product is
laid out as the batch again. -/

/-- The batched input's (and output's) shape and the flat parameter's. -/
abbrev Batched : Shape := ⟨3, ![8, 8192, 512]⟩
abbrev Flat : Shape := ⟨1, ![262144]⟩

theorem rows_of_batched : Batched.ShapeCasts Rows := by decide
theorem sq_of_flat : Flat.ShapeCasts Sq := by decide
theorem batched_of_rows : Rows.ShapeCasts Batched := by decide

/-- The layer: `x` as a matrix of rows, `w` as the square map `A`, the product `X · Aᵀ`, as a batch again. -/
def layer (x : FVec Ideal Batched .f32) (w : FVec Ideal Flat .f32) : FVec Ideal Batched .f32 :=
  shapeCast Batched (timesTranspose (shapeCast Rows x rows_of_batched) (shapeCast Sq w sq_of_flat)) batched_of_rows

end Cert.RowProduct

end
-- ==== Proof.KernelArray.lean ====
/-
  The kernel's result array after the region. The grid has 32 points; point `t` is given rows 2048·t … 2048·t + 2047
  of the [65536, 512] matrix of rows `X` and the whole [512, 512] map `A`, and writes back the same rows of the result.
  By the body's stored value, entry `(p, q)` of what point `t` writes is Σ_k X[2048·t + p, k] · A[q, k], which is entry
  `(2048·t + p, q)` of `X · Aᵀ`. Row `r` of the result lies in the block of point `r / 2048`, so the 32 blocks cover
  the array and it ends holding `X · Aᵀ` everywhere.
-/
import proofs.«420385_j60748017435285_3_alg».proof.Proof.Gen.KernelIdeal.Frame
import proofs.«420385_j60748017435285_3_alg».proof.Proof.KernelProduct
import proofs.«420385_j60748017435285_3_alg».proof.Proof.RowProduct
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Body Cert.RowProduct Idealize.ShloMosaic.ValueIdx

variable (m : (ℓ : Loc nD τ sig) → Buf (Elt Ideal) ℓ)

theorem hz : (![0, 0] : Fin 2 → Nat) = fun _ => 0 := funext fun a => by fin_cases a <;> rfl

/-- The three index maps over the grid's 32 points: the rows' window and the result's window are at block `t` on
    the row axis and at block 0 on the column axis; the map's window is always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks as entries of the arrays -/

/-- Entry `y` of the rows' block at point `t` is entry `(2048·t + y₀, y₁)` of the matrix of rows. -/
theorem rows_block_apply (c : Dev nD) (t : Fin cfg0.N) (y : S2048x512.Idx) (i : S65536x512.Idx)
    (h0 : (i 0).val = 2048 * t.val + (y 0).val) (h1 : (i 1).val = (y 1).val) :
    (iblk m c 0 t : Vec Ideal S2048x512 .f32) y = (V m c main_v1 : S65536x512.Idx → Elt Ideal .f32) i := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 512 + 1 * (y 1).val = (i 1).val; rw [e1, h1]; omega

/-- The map's block at any point is the whole map. -/
theorem map_block_apply (c : Dev nD) (t : Fin cfg0.N) (y : S512x512.Idx) (i : S512x512.Idx)
    (h0 : (i 0).val = (y 0).val) (h1 : (i 1).val = (y 1).val) :
    (iblk m c 1 t : Vec Ideal S512x512 .f32) y = (V m c main_v0 : S512x512.Idx → Elt Ideal .f32) i := by
  obtain ⟨-, -, e2, e3, -⟩ := idx_facts t
  unfold iblk
  rw [View.read_apply]
  show V m c main_v0 _ = V m c main_v0 _
  congr 1
  funext a
  apply Fin.ext
  match a with
  | ⟨0, _⟩ => show win0_1.index t (0 : Fin 2) * 512 + 1 * (y 0).val = (i 0).val; rw [e2, h0]; omega
  | ⟨1, _⟩ => show win0_1.index t (1 : Fin 2) * 512 + 1 * (y 1).val = (i 1).val; rw [e3, h1]; omega

/-! ## What a point writes back -/

/-- What point `t` writes back is block `t` of `X · Aᵀ`, with `X` and `A` the two arrays as the region finds them. -/
theorem flushed_eq (c : Dev nD) (t : Fin cfg0.N) :
    (dats m 0 c).flushed 2 t
      = ((cfg0.win 2).blk t).view.read (Elt Ideal) (timesTranspose (V m c main_v1) (V m c main_v0)) := by
  show (cfg0.win 2).cut (grid0.coords t) ((dats m 0 c).after 2 t) = _
  rw [after0_2]
  unfold out0_2
  rw [View.canon_unit_zero hz]
  simp only [View.ld_unit_zero (S := S2048x512) hz, View.ld_unit_zero (S := S512x512) hz]
  obtain ⟨-, -, -, -, e4, e5⟩ := idx_facts t
  funext j
  show k0_pay1 (iblk m c 0 t) (iblk m c 1 t) j
    = timesTranspose (V m c main_v1) (V m c main_v0) (((cfg0.win 2).blk t).view.emb j)
  refine (stored_apply (iblk m c 0 t) (iblk m c 1 t) j).trans ?_
  show _ = ∑ k : Fin 512, _
  refine Finset.sum_congr rfl fun k _ => ?_
  refine congrArg₂ (· * ·) (rows_block_apply m c t _ _ ?_ ?_) (map_block_apply m c t _ _ ?_ ?_)
  · show win0_2.index t (0 : Fin 2) * 2048 + 1 * (j 0).val = 2048 * t.val + (j 0).val
    rw [e4]; omega
  · rfl
  · show win0_2.index t (1 : Fin 2) * 512 + 1 * (j 1).val = (j 1).val
    rw [e5]; omega
  · rfl

/-! ## The blocks cover the array -/

/-- An entry is in point `t`'s block iff each coordinate is in the block's range on its axis. -/
theorem mem_blk (t : Fin cfg0.N) (i : S65536x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v2).slice (win0_2.rect t)).set ↔ _
  rw [View.set_slice_whole, Rect.mem_set_unit]
  exact Iff.rfl

/-- Every entry of the result is written back by some point: row `r` by point `r / 2048`. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 512 ≤ (i 1).val ∧ (i 1).val < win0_2.index t (1 : Fin 2) * 512 + 512
    rw [e5]; omega

/-- The result array after the region is `X · Aᵀ`. -/
theorem final (c : Dev nD) :
    (dats m 0 c).arrAt 2 cfg0.N = timesTranspose (V m c main_v1) (V m c main_v0) :=
  (dats m 0 c).arrAt_eq_of_cover 2 _ (fun t _ => flushed_eq m c t) (covered)

end Cert.KernelIdeal.Rows

end
-- ==== Proof.KernelRun.lean ====
/-
  The kernel program's run, read. Before the region the program lays the batched input out as the matrix of rows and the
  flat parameter as the square map; the region leaves `X · Aᵀ` in its result array; after the region the program lays
  that array out as the batch. So the program's result is the layer of RowProduct applied to its first two
  arguments, and no argument array is written.
-/
import proofs.«420385_j60748017435285_3_alg».proof.Proof.KernelArray
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Cert.KernelIdeal.Rows Cert.RowProduct

variable (m : (ℓ : Loc nD τ sig) → Buf (Elt Ideal) ℓ) (ρ : Dev nD → PrngReg)

/-- The matrix of rows as the region finds it is the batched argument laid out as rows. -/
theorem rows_entry (c : Dev nD) :
    (V m c main_v1 : S65536x512.Idx → Elt Ideal .f32)
      = shapeCast S65536x512 (m ((c : Thread nD τ).loc main_arg0)) shapeCasts_S8x8192x512_S65536x512 := by
  show StableHlo.after hostOps0 (fun b => m (c, b)) (Proc.devRef .tc main_v1) = _
  after_results
  rfl

/-- The square map as the region finds it is the flat parameter laid out as a matrix. -/
theorem map_entry (c : Dev nD) :
    (V m c main_v0 : S512x512.Idx → Elt Ideal .f32)
      = shapeCast S512x512 (m ((c : Thread nD τ).loc main_arg1)) shapeCasts_S262144_S512x512 := by
  show StableHlo.after hostOps0 (fun b => m (c, b)) (Proc.devRef .tc main_v0) = _
  after_results
  rfl

/-- The program's result buffer after the lines that follow the region: the region's result array laid out as a batch. -/
theorem tail_eq (c : Dev nD) :
    Pipeline.afterTail₀ cfgs (dats m) 0 (V0 m) [hostOps1] c main_v3
      = shapeCast S8x8192x512 ((dats m 0 c).arrAt 2 cfg0.N) shapeCasts_S65536x512_S8x8192x512 := by
  unfold Pipeline.afterTail₀
  show StableHlo.after hostOps1 _ (Proc.devRef .tc main_v3) = _
  after_results
  exact congrArg (fun z : S65536x512.Idx → Elt Ideal .f32 => shapeCast S8x8192x512 z shapeCasts_S65536x512_S8x8192x512)
    (Pipeline.withArrays_arr spec0 launch0.win.arr_inj c _ _ 2)

/-- So the result buffer ends holding the layer of the first two arguments. -/
theorem result_eq (c : Dev nD) :
    Pipeline.afterTail₀ cfgs (dats m) 0 (V0 m) [hostOps1] c main_v3
      = layer (m ((c : Thread nD τ).loc main_arg0)) (m ((c : Thread nD τ).loc main_arg1)) := by
  rw [tail_eq, final, rows_entry, map_entry]
  rfl

/-- The run: every weakly fair execution terminates with the result buffer at the layer of the first two arguments and
    every argument array as launched. -/
theorem run : θ_run defs (onTc (τ := τ) (main (F := Ideal))) ⟨m, fun _ => 0, ρ⟩ fun r => ∀ c : Dev nD,
      r.2.mem ((c.tc : Thread nD τ).loc main_v3) = layer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Whole

end
-- ==== Proof.ReferenceProduct.lean ====
/-
  The reference's matrix product is `X · Aᵀ`. The reference transposes `A` and then contracts the rows' columns
  against the transposed matrix's rows: entry `(n, o)` is Σ_k X[n, k] · Aᵀ[k, o], and Aᵀ[k, o] = A[o, k], so each
  term is X[n, k] · A[o, k] — the formula of RowProduct, term by term, in the same order of summation.
-/
import proofs.«420385_j60748017435285_3_alg».proof.Proof.Gen.ReferenceIdeal.Read
import proofs.«420385_j60748017435285_3_alg».proof.Proof.RowProduct

noncomputable section

open scoped BigOperators

namespace Cert.ReferenceIdeal.RefValue

open Cert.ReferenceIdeal Cert.ReferenceIdeal.Gen Cert.ReferenceIdeal.Read Cert.RowProduct
open Idealize.ShloMosaic Idealize.ShloMosaic.ValueIdx

/-- The product stage of the reference, at `Ideal`, is `X · Aᵀ` of the two reshaped arguments: the left operand is
    read at `(n, k)`, and the transposed right operand at `(k, o)` is the untransposed one at `(o, k)`. -/
theorem product_eq (x0 : (⟨S8x8192x512, .f32⟩ : BufTy).Contents (Elt Ideal)) (x1 : (⟨S262144, .f32⟩ : BufTy).Contents (Elt Ideal)) :
    val_main_v3 (F := Ideal) x0 x1 = timesTranspose (val_main_v1 (F := Ideal) x0) (val_main_v0 (F := Ideal) x1) := by
  funext i
  rw [val_main_v3_apply]
  show _ = ∑ k : Fin 512, _
  refine Finset.sum_congr rfl fun k _ => ?_
  rw [val_main_v2_apply]
  have el : lidx_main_v3 i k = ix2 (⟨(i 0).val, (i 0).isLt⟩ : Fin 65536) k :=
    funext fun a => by match a with | ⟨0, _⟩ => rfl | ⟨1, _⟩ => rfl
  have er : idx_main_v2 (ridx_main_v3 i k) = ix2 (⟨(i 1).val, (i 1).isLt⟩ : Fin 512) k :=
    funext fun a => by match a with | ⟨0, _⟩ => rfl | ⟨1, _⟩ => rfl
  rw [el, er]

/-- The reference's result is the layer of its first two arguments: its last stage lays the product out as a batch,
    its first two lay the arguments out as the matrix of rows and the square map. -/
theorem result_eq (x0 : (⟨S8x8192x512, .f32⟩ : BufTy).Contents (Elt Ideal)) (x1 : (⟨S262144, .f32⟩ : BufTy).Contents (Elt Ideal)) :
    val_main_v4 (F := Ideal) x0 x1 = layer x0 x1 := by
  unfold val_main_v4
  rw [product_eq]
  rfl

end Cert.ReferenceIdeal.RefValue

end
-- ==== Proof.lean ====
/-
  A linear layer without bias, y = x · Aᵀ, on a batch x of 8 × 8192 rows of 512 numbers, with the 512 × 512 map A given
  flat as 262144 numbers (the other three arguments are not read by either program).

  The kernel program lays x out as a matrix X of 65536 rows, runs one kernel over a grid of 32 points, each taking 2048
  rows of X and the whole of A and writing the 2048 corresponding rows of the product, and lays the product out as a
  batch. Inside the body the operands are narrowed to a shorter float format before the product; over the extended reals
  a change of format is the identity, and the product into an accumulator of zeros is the plain sum, so each written
  entry is Σ_k X[n, k] · A[o, k]. The 32 blocks of rows tile the result, so the result array is X · Aᵀ.

  The reference lays x and A out the same way, transposes A, and contracts X's columns with the rows of Aᵀ:
  Σ_k X[n, k] · Aᵀ[k, o], and Aᵀ[k, o] = A[o, k]. The two sums have the same terms in the same order, so no law of
  arithmetic is needed to join them and the finiteness of the inputs is never used.

  Modules: RowProduct (the formula, no program), KernelProduct (the body's stored value at an entry), KernelArray (a
  point's block, the cover, the result array), KernelRun (the layouts around the region; the run), ReferenceProduct
  (the reference's stages as the formula). The kernel's idealization rewrote nothing, so there is nothing to preserve.
-/
import proofs.«420385_j60748017435285_3_alg».proof.Defs
import proofs.«420385_j60748017435285_3_alg».proof.Proof.Gen.Kernel
import proofs.«420385_j60748017435285_3_alg».proof.Proof.Gen.Kernel.Skeleton
import proofs.«420385_j60748017435285_3_alg».proof.Proof.Gen.Kernel.Launch
import proofs.«420385_j60748017435285_3_alg».proof.Proof.Gen.Kernel.Points
import proofs.«420385_j60748017435285_3_alg».proof.Proof.Gen.Kernel.Frame
import proofs.«420385_j60748017435285_3_alg».proof.Proof.Gen.KernelIdeal
import proofs.«420385_j60748017435285_3_alg».proof.Proof.Gen.KernelIdeal.Skeleton
import proofs.«420385_j60748017435285_3_alg».proof.Proof.Gen.KernelIdeal.Launch
import proofs.«420385_j60748017435285_3_alg».proof.Proof.Gen.KernelIdeal.Points
import proofs.«420385_j60748017435285_3_alg».proof.Proof.Gen.KernelIdeal.Frame
import proofs.«420385_j60748017435285_3_alg».proof.Proof.Gen.ReferenceIdeal
import proofs.«420385_j60748017435285_3_alg».proof.Proof.Gen.ReferenceIdeal.Run
import proofs.«420385_j60748017435285_3_alg».proof.Proof.Gen.ReferenceIdeal.Read
import proofs.«420385_j60748017435285_3_alg».proof.Proof.Gen.Pre_finite_inputs
import proofs.«420385_j60748017435285_3_alg».proof.Proof.KernelRun
import proofs.«420385_j60748017435285_3_alg».proof.Proof.ReferenceProduct
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories that agree on the arguments both programs end with the layer x · Aᵀ of the first two arguments in
    their result buffers: the kernel program by its run read block by block, the reference by its stages read at an entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
